-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : IVec S800000 32) (main_arg2 : IVec S800000 32) (main_arg3 : FVec F S256x256 .f32) (main_arg4 : FVec F S256 .f32) (main_arg5 : FVec F S256x128 .f32) (main_arg6 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_v13 main_v16
-- ==== Kernel.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S1x256 : Shape := ⟨2, ![1, 256]⟩
abbrev S1x128 : Shape := ⟨2, ![1, 128]⟩
abbrev S2000x256 : Shape := ⟨2, ![2000, 256]⟩
abbrev S2000x1 : Shape := ⟨2, ![2000, 1]⟩
abbrev S850000x256 : Shape := ⟨2, ![850000, 256]⟩
abbrev S50000x128 : Shape := ⟨2, ![50000, 128]⟩
abbrev S2000x128 : Shape := ⟨2, ![2000, 128]⟩
abbrev S850000x128 : Shape := ⟨2, ![850000, 128]⟩

abbrev nBuf : Space → Nat
  | .hbm => 61
  | .vmem => 24
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S50000, .i32⟩
  | .hbm, ⟨8, _⟩ => ⟨S850000, .i32⟩
  | .hbm, ⟨9, _⟩ => ⟨S850000, .i32⟩
  | .hbm, ⟨10, _⟩ => ⟨S_, .f32⟩
  | .hbm, ⟨11, _⟩ => ⟨S850000, .f32⟩
  | .hbm, ⟨12, _⟩ => ⟨S_, .f32⟩
  | .hbm, ⟨13, _⟩ => ⟨S50000, .f32⟩
  | .hbm, ⟨14, _⟩ => ⟨S850000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S1x256, .f32⟩
  | .hbm, ⟨31, _⟩ => ⟨S1x128, .f32⟩
  | .hbm, ⟨32, _⟩ => ⟨S50000x256, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000x256, .f32⟩
  | .hbm, ⟨42, _⟩ => ⟨S_, .f32⟩
  | .hbm, ⟨43, _⟩ => ⟨S50000x256, .f32⟩
  | .hbm, ⟨44, _⟩ => ⟨S850000x1, .i32⟩
  | .hbm, ⟨45, _⟩ => ⟨S50000x256, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S_, .f32⟩
  | .hbm, ⟨57, _⟩ => ⟨S50000x128, .f32⟩
  | .hbm, ⟨58, _⟩ => ⟨S850000x1, .i32⟩
  | .hbm, ⟨59, _⟩ => ⟨S50000x128, .f32⟩
  | .hbm, ⟨60, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x1, .f32⟩
  | .local _ .vmem, ⟨4, _⟩ => ⟨S2000x1, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S256x128, .f32⟩
  | .local _ .vmem, ⟨13, _⟩ => ⟨S2000x1, .f32⟩
  | .local _ .vmem, ⟨14, _⟩ => ⟨S2000x1, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x1, .f32⟩
  | .local _ .vmem, ⟨20, _⟩ => ⟨S2000x1, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  shapeCasts_S256_S1x256 : S256.ShapeCasts S1x256
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bcast_S_S50000x256 : S_.BroadcastsInDim S50000x256 (![] : Fin 0 → Fin S50000x256.rank)
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S850000x1_S850000_n_0_0_1_wf : ScatterDims.WF S50000 S850000x1 S850000 [] [0] [0] 1
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S50000x1.size a
  hwx1_4 : ∀ i : grid1.Coords, EltTy.bits .f32 = 32 ∨ (Rect.block (s := S50000x1) S2000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v31) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S50000, .i32⟩
  | .hbm, ⟨8, _⟩ => ⟨S850000, .i32⟩
  | .hbm, ⟨9, _⟩ => ⟨S850000, .i32⟩
  | .hbm, ⟨10, _⟩ => ⟨S_, .f32⟩
  | .hbm, ⟨11, _⟩ => ⟨S850000, .f32⟩
  | .hbm, ⟨12, _⟩ => ⟨S_, .f32⟩
  | .hbm, ⟨13, _⟩ => ⟨S50000, .f32⟩
  | .hbm, ⟨14, _⟩ => ⟨S850000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x256, .f32⟩
  | .hbm, ⟨29, _⟩ => ⟨S50000x1, .f32⟩
  | .hbm, ⟨30, _⟩ => ⟨S50000x256, .f32⟩
  | .hbm, ⟨31, _⟩ => ⟨S50000x256, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000x256, .f32⟩
  | .hbm, ⟨41, _⟩ => ⟨S_, .f32⟩
  | .hbm, ⟨42, _⟩ => ⟨S50000x256, .f32⟩
  | .hbm, ⟨43, _⟩ => ⟨S850000x1, .i32⟩
  | .hbm, ⟨44, _⟩ => ⟨S50000x256, .f32⟩
  | .hbm, ⟨45, _⟩ => ⟨S50000x1, .f32⟩
  | .hbm, ⟨46, _⟩ => ⟨S50000x256, .f32⟩
  | .hbm, ⟨47, _⟩ => ⟨S50000x256, .f32⟩
  | .hbm, ⟨48, _⟩ => ⟨S1x256, .f32⟩
  | .hbm, ⟨49, _⟩ => ⟨S50000x256, .f32⟩
  | .hbm, ⟨50, _⟩ => ⟨S50000x256, .f32⟩
  | .hbm, ⟨51, _⟩ => ⟨S_, .f32⟩
  | .hbm, ⟨52, _⟩ => ⟨S50000x256, .f32⟩
  | .hbm, ⟨53, _⟩ => ⟨S50000x256, .f32⟩
  | .hbm, ⟨54, _⟩ => ⟨S50000x128, .f32⟩
  | .hbm, ⟨55, _⟩ => ⟨S50000x1, .f32⟩
  | .hbm, ⟨56, _⟩ => ⟨S50000x128, .f32⟩
  | .hbm, ⟨57, _⟩ => ⟨S50000x128, .f32⟩
  | .hbm, ⟨58, _⟩ => ⟨S_, .i32⟩
  | .hbm, ⟨59, _⟩ => ⟨S850000, .i32⟩
  | .hbm, ⟨60, _⟩ => ⟨S850000, .i1⟩
  | .hbm, ⟨61, _⟩ => ⟨S_, .i32⟩
  | .hbm, ⟨62, _⟩ => ⟨S850000, .i32⟩
  | .hbm, ⟨63, _⟩ => ⟨S850000, .i32⟩
  | .hbm, ⟨64, _⟩ => ⟨S850000, .i32⟩
  | .hbm, ⟨65, _⟩ => ⟨S850000x1, .i32⟩
  | .hbm, ⟨66, _⟩ => ⟨S850000x128, .f32⟩
  | .hbm, ⟨67, _⟩ => ⟨S_, .f32⟩
  | .hbm, ⟨68, _⟩ => ⟨S50000x128, .f32⟩
  | .hbm, ⟨69, _⟩ => ⟨S850000x1, .i32⟩
  | .hbm, ⟨70, _⟩ => ⟨S50000x128, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_call0_cst : Ref sig .tc := ⟨.hbm, 51, rfl⟩
abbrev main_call0_v0 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_6 : Ref sig .tc := ⟨.hbm, 58, rfl⟩
abbrev main_v41 : Ref sig .tc := ⟨.hbm, 59, rfl⟩
abbrev main_v42 : Ref sig .tc := ⟨.hbm, 60, rfl⟩
abbrev main_c_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_call1_cst : Ref sig .tc := ⟨.hbm, 77, rfl⟩
abbrev main_call1_v0 : Ref sig .tc := ⟨.hbm, 78, rfl⟩
abbrev main_v57 : Ref sig .tc := ⟨.hbm, 79, rfl⟩

abbrev nD : Nat := 1
abbrev τ : Topo := Topo.v7x

variable {F : FTy → Type} [FloatOps F]

class Facts₀ : Prop where
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Spec.lean ====
/-
  The two dense stages of a normalized graph convolution, as whole-array functions on the extended reals.

  `linScaleCol x w n` is the matrix product of `x` (N rows, K columns) with `w` (K by M), each row `p` of the
  product then multiplied by the entry `n (p, 0)` of a column of per-row factors.
  `affReluCol g d b` multiplies row `p` of `g` by `d (p, 0)`, adds the row vector `b (0, ·)`, and takes the maximum with
  the float zero, entry by entry.
  Both read row `p` of their result from row `p` of their row-indexed operands alone, so a block of consecutive rows of
  the result is the same function of the matching blocks of rows: the two `_rows` lemmas.
-/
import Idealize.ShloMosaic.Lib.ValueIdx
import Idealize.ShloMosaic.PureOps.Ideal

noncomputable section

namespace Cert.Spec

open Idealize.ShloMosaic Idealize.ShloMosaic.ValueIdx

/-- A rank-2 array of extended reals. -/
abbrev Arr2 (n m : Nat) : Type := (⟨2, ![n, m]⟩ : Shape).Idx → EReal

/-- The product of `x` and `w`, row `p` scaled by `n (p, 0)`. -/
def linScaleCol {N K M : Nat} (x : Arr2 N K) (w : Arr2 K M) (n : Arr2 N 1) : Arr2 N M :=
  fun i => (∑ a : Fin K, x (ix2 (i 0) a) * w (ix2 a (i 1))) * n (ix2 (i 0) 0)

/-- Row `p` of `g` scaled by `d (p, 0)`, plus the row `b`, clipped below at the float zero. -/
def affReluCol {N M : Nat} (g : Arr2 N M) (d : Arr2 N 1) (b : Arr2 1 M) : Arr2 N M :=
  fun i => max (g i * d (ix2 (i 0) 0) + b (ix2 0 (i 1))) (Ideal.ofBits .f32 0x00000000#32)

/-- Rows `o, o + 1, …, o + n - 1` of an array with `N` rows. -/
def rows {N M : Nat} (n o : Nat) (h : o + n ≤ N) (X : Arr2 N M) : Arr2 n M :=
  fun y => X (ix2 ⟨o + (y 0).val, by have := (y 0).isLt; simp at this; omega⟩ (y 1))

theorem rows_apply {N M : Nat} (n o : Nat) (h : o + n ≤ N) (X : Arr2 N M) (p : Fin n) (q : Fin M) :
    rows n o h X (ix2 p q) = X (ix2 ⟨o + p.val, by omega⟩ q) := rfl

/-- A block of rows of the scaled product is the scaled product of the blocks of rows. -/
theorem linScaleCol_rows {N K M : Nat} (n o : Nat) (h : o + n ≤ N) (x : Arr2 N K) (w : Arr2 K M) (c : Arr2 N 1) :
    rows n o h (linScaleCol x w c) = linScaleCol (rows n o h x) w (rows n o h c) := rfl

/-- A block of rows of the clipped affine map is the clipped affine map of the blocks of rows. -/
theorem affReluCol_rows {N M : Nat} (n o : Nat) (h : o + n ≤ N) (g : Arr2 N M) (d : Arr2 N 1) (b : Arr2 1 M) :
    rows n o h (affReluCol g d b) = affReluCol (rows n o h g) (rows n o h d) b := rfl

end Cert.Spec

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.KRegion0.lean ====
/-
  Region 0 of the kernel: each block of 2000 rows of the features is multiplied with the whole weight matrix and its
  rows are scaled by the matching 2000 entries of the source-degree column. Every grid point writes its block of rows
  back, and the 25 blocks tile the 50000 rows, so the region's output array is the scaled product of the whole arrays.
-/
import proofs.«128159_j52853867544720_1_alg».proof.Proof.Gen.KernelIdeal.Frame
import proofs.«128159_j52853867544720_1_alg».proof.Proof.Spec
import proofs.«128159_j52853867544720_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The block product at an entry -/

/-- Which coordinate of each operand of the block product is the output's and which the contracted one. -/
theorem lhs0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The body's stored value is the scaled product of its three loaded blocks: the change of float format is the
    identity on the extended reals, the product into the zero accumulator is the plain sum over the 256 contracted
    entries, and the column of factors is repeated along each row. -/
theorem pay_eq (x0 : Vec Ideal S2000x256 .f32) (x1 : Vec Ideal S256x256 .f32) (x2 : Vec Ideal S2000x1 .f32) :
    k0_pay1 (F := Ideal) x0 x1 x2 = linScaleCol x0 x1 x2 := by
  funext j
  obtain ⟨p, q, rfl⟩ : ∃ (p : Fin 2000) (q : Fin 256), j = ix2 p q := ⟨j 0, j 1, eq_ix2 j⟩
  unfold k0_pay1
  have hm := Cert.Lib.Dot2.matmul_zero_ix2 dot_S2000x256_S256x256_S2000x256_1_0_0_1_n_n none rfl rfl lhs0 lhs1 rhs0 rhs1
    (truncf .bf16 x0 bitsLt_bf16_f32) (truncf .bf16 x1 bitsLt_bf16_f32) p q
  have hb : broadcastTo S2000x256 (shapeCast S2000x1 x2 shapeCasts_S2000x1_S2000x1) broadcasts_S2000x1_S2000x256 (ix2 p q)
      = x2 (ix2 p 0) := by
    rw [shapeCast_self]
    exact broadcastTo_apply x2 _ (ix2 p q) (ix2 p 0) (fun a => match a with
      | ⟨0, _⟩ => by show p.val = if (2000 : Nat) = 1 then 0 else p.val; rw [if_neg (by decide)]
      | ⟨1, _⟩ => by show 0 = if (1 : Nat) = 1 then 0 else q.val; rw [if_pos rfl])
  rw [mulf_apply, hm, hb]
  rfl

/-! ## The windows' blocks as blocks of rows -/

/-- Over the grid: point `t`'s block of each row-blocked window starts at row `2000 t`; the weights' window is the
    whole matrix at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem rows_le (t : Fin cfg0.N) : 2000 * t.val + 2000 ≤ 50000 := by
  have ht : t.val < 25 := lt_of_lt_of_eq t.isLt N_0
  omega

theorem blk0_rows (c : Dev nD) (t : Fin cfg0.N) :
    (iblk0 V c 0 t : Arr2 2000 256) = rows 2000 (2000 * t.val) (rows_le t) (V c main_arg0) := by
  obtain ⟨e0, e1, -⟩ := idx_facts t
  funext y
  obtain ⟨p, q, rfl⟩ : ∃ (p : Fin 2000) (q : Fin 256), y = ix2 p q := ⟨y 0, y 1, eq_ix2 y⟩
  show V c main_arg0 (((cfg0.win 0).blk t).view.emb (ix2 p q)) = V c main_arg0 (ix2 ⟨2000 * t.val + p.val, _⟩ q)
  refine congrArg (V c main_arg0) (funext fun a => Fin.ext ?_)
  match a with
  | ⟨0, _⟩ => show win0_0.index t (0 : Fin 2) * 2000 + 1 * p.val = 2000 * t.val + p.val; omega
  | ⟨1, _⟩ => show win0_0.index t (1 : Fin 2) * 256 + 1 * q.val = q.val; omega

theorem blk1_whole (c : Dev nD) (t : Fin cfg0.N) : (iblk0 V c 1 t : Arr2 256 256) = V c main_arg3 := by
  obtain ⟨-, -, e2, e3, -⟩ := idx_facts t
  funext y
  obtain ⟨p, q, rfl⟩ : ∃ (p : Fin 256) (q : Fin 256), y = ix2 p q := ⟨y 0, y 1, eq_ix2 y⟩
  show V c main_arg3 (((cfg0.win 1).blk t).view.emb (ix2 p q)) = V c main_arg3 (ix2 p q)
  refine congrArg (V c main_arg3) (funext fun a => Fin.ext ?_)
  match a with
  | ⟨0, _⟩ => show win0_1.index t (0 : Fin 2) * 256 + 1 * p.val = p.val; omega
  | ⟨1, _⟩ => show win0_1.index t (1 : Fin 2) * 256 + 1 * q.val = q.val; omega

theorem blk2_rows (c : Dev nD) (t : Fin cfg0.N) :
    (iblk0 V c 2 t : Arr2 2000 1) = rows 2000 (2000 * t.val) (rows_le t) (V c main_v13) := by
  obtain ⟨-, -, -, -, e4, e5, -⟩ := idx_facts t
  funext y
  obtain ⟨p, q, rfl⟩ : ∃ (p : Fin 2000) (q : Fin 1), y = ix2 p q := ⟨y 0, y 1, eq_ix2 y⟩
  show V c main_v13 (((cfg0.win 2).blk t).view.emb (ix2 p q)) = V c main_v13 (ix2 ⟨2000 * t.val + p.val, _⟩ q)
  refine congrArg (V c main_v13) (funext fun a => Fin.ext ?_)
  match a with
  | ⟨0, _⟩ => show win0_2.index t (0 : Fin 2) * 2000 + 1 * p.val = 2000 * t.val + p.val; omega
  | ⟨1, _⟩ => show win0_2.index t (1 : Fin 2) * 1 + 1 * q.val = q.val; omega

/-- Point `t`'s block of the output window, read off any array of the output's shape, is its rows `2000 t …`. -/
theorem blk3_rows (t : Fin cfg0.N) (G : Arr2 50000 256) :
    (((cfg0.win 3).blk t).view.read (Elt Ideal) G : Arr2 2000 256) = rows 2000 (2000 * t.val) (rows_le t) G := by
  obtain ⟨-, -, -, -, -, -, e6, e7⟩ := idx_facts t
  funext y
  obtain ⟨p, q, rfl⟩ : ∃ (p : Fin 2000) (q : Fin 256), y = ix2 p q := ⟨y 0, y 1, eq_ix2 y⟩
  show G (((cfg0.win 3).blk t).view.emb (ix2 p q)) = G (ix2 ⟨2000 * t.val + p.val, _⟩ q)
  refine congrArg G (funext fun a => Fin.ext ?_)
  match a with
  | ⟨0, _⟩ => show win0_3.index t (0 : Fin 2) * 2000 + 1 * p.val = 2000 * t.val + p.val; omega
  | ⟨1, _⟩ => show win0_3.index t (1 : Fin 2) * 256 + 1 * q.val = q.val; omega

/-! ## What a point writes back, the cover, the array -/

/-- What point `t` writes back is block `t` of the scaled product of the arrays as the region finds them. -/
theorem flushed_eq (c : Dev nD) (t : Fin cfg0.N) :
    (dat0 V c).flushed 3 t
      = ((cfg0.win 3).blk t).view.read (Elt Ideal) (linScaleCol (V c main_arg0) (V c main_arg3) (V c main_v13)) := by
  show (cfg0.win 3).cut (grid0.coords t) ((dat0 V c).after 3 t) = _
  rw [after0_3]
  unfold out0_3
  rw [View.canon_unit_zero hz]
  simp only [View.ld_unit_zero (S := S2000x256) hz, View.ld_unit_zero (S := S256x256) hz, View.ld_unit_zero (S := S2000x1) hz]
  rw [pay_eq]
  exact ((congr (congr (congrArg linScaleCol (blk0_rows V c t)) (blk1_whole V c t)) (blk2_rows V c t)).trans
    (linScaleCol_rows 2000 (2000 * t.val) (rows_le t) _ _ _).symm).trans (blk3_rows t _).symm

/-- An index of the output array is in point `t`'s block iff each coordinate is in the block's range on its axis. -/
theorem mem_blk (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v20).slice (win0_3.rect t)).set ↔ _
  rw [View.set_slice_whole, Rect.mem_set_unit]
  exact Iff.rfl

/-- Row `r` of the output lies in the block of point `r / 2000`. -/
theorem cover (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : (i 0).val / 2000 < cfg0.N := by rw [show cfg0.N = 25 from N_0]; omega
  obtain ⟨-, -, -, -, -, -, e6, e7⟩ := idx_facts ⟨(i 0).val / 2000, hN⟩
  refine ⟨⟨(i 0).val / 2000, hN⟩, flush0_3 _, ?_⟩
  rw [mem_blk]
  intro a
  match a with
  | ⟨0, _⟩ => show win0_3.index ⟨(i 0).val / 2000, hN⟩ (0 : Fin 2) * 2000 ≤ (i 0).val ∧ (i 0).val < win0_3.index ⟨(i 0).val / 2000, hN⟩ (0 : Fin 2) * 2000 + 2000; rw [e6]; show (i 0).val / 2000 * 2000 ≤ (i 0).val ∧ (i 0).val < (i 0).val / 2000 * 2000 + 2000; omega
  | ⟨1, _⟩ => show win0_3.index ⟨(i 0).val / 2000, hN⟩ (1 : Fin 2) * 256 ≤ (i 1).val ∧ (i 1).val < win0_3.index ⟨(i 0).val / 2000, hN⟩ (1 : Fin 2) * 256 + 256; omega

/-- The region's output array after its run: the scaled product of the arrays as the region finds them. -/
theorem final (c : Dev nD) :
    (dat0 V c).arrAt 3 cfg0.N = linScaleCol (V c main_arg0) (V c main_arg3) (V c main_v13) :=
  (dat0 V c).arrAt_eq_of_cover 3 _ (fun t _ => flushed_eq V c t) cover

end Cert.KernelIdeal.Region0

end
-- ==== Proof.KRegion1.lean ====
/-
  Region 1 of the kernel: a block of 2000 rows of the first aggregate is scaled row by row by the destination-degree
  column, the first bias row is added, the result is clipped below at zero, multiplied with the whole second weight matrix,
  and the rows are scaled by the source-degree column. The 25 blocks of rows tile the output, so the region's output array
  is that function of the whole arrays.
-/
import proofs.«128159_j52853867544720_1_alg».proof.Proof.Gen.KernelIdeal.Frame
import proofs.«128159_j52853867544720_1_alg».proof.Proof.Spec
import proofs.«128159_j52853867544720_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The body's value at an entry -/

/-- Which coordinate of each operand of the block product is the output's and which the contracted one. -/
theorem lhs0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The activation the body feeds its product: rows scaled by the column, the bias row added, clipped at zero. -/
theorem act_eq (x0 : Vec Ideal S2000x256 .f32) (x1 : Vec Ideal S2000x1 .f32) (x2 : Vec Ideal S1x256 .f32) :
    maximumf (addf (mulf (shapeCast S2000x256 x0 shapeCasts_S2000x256_S2000x256)
        (broadcastTo S2000x256 (shapeCast S2000x1 x1 shapeCasts_S2000x1_S2000x1) broadcasts_S2000x1_S2000x256))
        (broadcastTo S2000x256 (shapeCast S1x256 x2 shapeCasts_S1x256_S1x256) broadcasts_S1x256_S2000x256))
      (broadcast S2000x256 (Scalar.ofBits (F := Ideal) .f32 0x00000000#32))
      = affReluCol x0 x1 x2 := by
  funext j
  obtain ⟨p, a, rfl⟩ : ∃ (p : Fin 2000) (a : Fin 256), j = ix2 p a := ⟨j 0, j 1, eq_ix2 j⟩
  rw [shapeCast_self, shapeCast_self, shapeCast_self, maximumf_apply, addf_apply, mulf_apply,
    broadcastTo_apply x1 _ (ix2 p a) (ix2 p 0) (fun d => match d with
      | ⟨0, _⟩ => by show p.val = if (2000 : Nat) = 1 then 0 else p.val; rw [if_neg (by decide)]
      | ⟨1, _⟩ => by show 0 = if (1 : Nat) = 1 then 0 else a.val; rw [if_pos rfl]),
    broadcastTo_apply x2 _ (ix2 p a) (ix2 0 a) (fun d => match d with
      | ⟨0, _⟩ => by show 0 = if (1 : Nat) = 1 then 0 else p.val; rw [if_pos rfl]
      | ⟨1, _⟩ => by show a.val = if (256 : Nat) = 1 then 0 else a.val; rw [if_neg (by decide)])]
  rfl

/-- The body's stored value: the activation's product with the weights, rows scaled by the second column. -/
theorem pay_eq (x0 : Vec Ideal S2000x256 .f32) (x1 : Vec Ideal S2000x1 .f32) (x2 : Vec Ideal S1x256 .f32)
    (x3 : Vec Ideal S256x128 .f32) (x4 : Vec Ideal S2000x1 .f32) :
    k1_pay1 (F := Ideal) x0 x1 x2 x3 x4 = linScaleCol (affReluCol x0 x1 x2) x3 x4 := by
  funext j
  obtain ⟨p, q, rfl⟩ : ∃ (p : Fin 2000) (q : Fin 128), j = ix2 p q := ⟨j 0, j 1, eq_ix2 j⟩
  unfold k1_pay1
  rw [act_eq]
  have hm := Cert.Lib.Dot2.matmul_zero_ix2 dot_S2000x256_S256x128_S2000x128_1_0_0_1_n_n none rfl rfl lhs0 lhs1 rhs0 rhs1
    (truncf .bf16 (affReluCol x0 x1 x2 : FVec Ideal S2000x256 .f32) bitsLt_bf16_f32) (truncf .bf16 x3 bitsLt_bf16_f32) p q
  have hb : broadcastTo S2000x128 (shapeCast S2000x1 x4 shapeCasts_S2000x1_S2000x1) broadcasts_S2000x1_S2000x128 (ix2 p q)
      = x4 (ix2 p 0) := by
    rw [shapeCast_self]
    exact broadcastTo_apply x4 _ (ix2 p q) (ix2 p 0) (fun a => match a with
      | ⟨0, _⟩ => by show p.val = if (2000 : Nat) = 1 then 0 else p.val; rw [if_neg (by decide)]
      | ⟨1, _⟩ => by show 0 = if (1 : Nat) = 1 then 0 else q.val; rw [if_pos rfl])
  rw [mulf_apply, hm, hb]
  rfl

/-! ## The windows' blocks as blocks of rows -/

/-- Over the grid: point `t`'s block of each row-blocked window starts at row `2000 t`; the bias row's and the weights'
    windows are the whole arrays at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem rows_le (t : Fin cfg1.N) : 2000 * t.val + 2000 ≤ 50000 := by
  have ht : t.val < 25 := lt_of_lt_of_eq t.isLt N_1
  omega

theorem blk0_rows (c : Dev nD) (t : Fin cfg1.N) :
    (iblk1 V c 0 t : Arr2 2000 256) = rows 2000 (2000 * t.val) (rows_le t) (V c main_v30) := by
  obtain ⟨e0, e1, -⟩ := idx_facts t
  funext y
  obtain ⟨p, q, rfl⟩ : ∃ (p : Fin 2000) (q : Fin 256), y = ix2 p q := ⟨y 0, y 1, eq_ix2 y⟩
  show V c main_v30 (((cfg1.win 0).blk t).view.emb (ix2 p q)) = V c main_v30 (ix2 ⟨2000 * t.val + p.val, _⟩ q)
  refine congrArg (V c main_v30) (funext fun a => Fin.ext ?_)
  match a with
  | ⟨0, _⟩ => show win1_0.index t (0 : Fin 2) * 2000 + 1 * p.val = 2000 * t.val + p.val; omega
  | ⟨1, _⟩ => show win1_0.index t (1 : Fin 2) * 256 + 1 * q.val = q.val; omega

theorem blk1_rows (c : Dev nD) (t : Fin cfg1.N) :
    (iblk1 V c 1 t : Arr2 2000 1) = rows 2000 (2000 * t.val) (rows_le t) (V c main_v17) := by
  obtain ⟨-, -, e0, e1, -⟩ := idx_facts t
  funext y
  obtain ⟨p, q, rfl⟩ : ∃ (p : Fin 2000) (q : Fin 1), y = ix2 p q := ⟨y 0, y 1, eq_ix2 y⟩
  show V c main_v17 (((cfg1.win 1).blk t).view.emb (ix2 p q)) = V c main_v17 (ix2 ⟨2000 * t.val + p.val, _⟩ q)
  refine congrArg (V c main_v17) (funext fun a => Fin.ext ?_)
  match a with
  | ⟨0, _⟩ => show win1_1.index t (0 : Fin 2) * 2000 + 1 * p.val = 2000 * t.val + p.val; omega
  | ⟨1, _⟩ => show win1_1.index t (1 : Fin 2) * 1 + 1 * q.val = q.val; omega

theorem blk2_whole (c : Dev nD) (t : Fin cfg1.N) : (iblk1 V c 2 t : Arr2 1 256) = V c main_v18 := by
  obtain ⟨-, -, -, -, e0, e1, -⟩ := idx_facts t
  funext y
  obtain ⟨p, q, rfl⟩ : ∃ (p : Fin 1) (q : Fin 256), y = ix2 p q := ⟨y 0, y 1, eq_ix2 y⟩
  show V c main_v18 (((cfg1.win 2).blk t).view.emb (ix2 p q)) = V c main_v18 (ix2 p q)
  refine congrArg (V c main_v18) (funext fun a => Fin.ext ?_)
  match a with
  | ⟨0, _⟩ => show win1_2.index t (0 : Fin 2) * 1 + 1 * p.val = p.val; omega
  | ⟨1, _⟩ => show win1_2.index t (1 : Fin 2) * 256 + 1 * q.val = q.val; omega

theorem blk3_whole (c : Dev nD) (t : Fin cfg1.N) : (iblk1 V c 3 t : Arr2 256 128) = V c main_arg5 := by
  obtain ⟨-, -, -, -, -, -, e0, e1, -⟩ := idx_facts t
  funext y
  obtain ⟨p, q, rfl⟩ : ∃ (p : Fin 256) (q : Fin 128), y = ix2 p q := ⟨y 0, y 1, eq_ix2 y⟩
  show V c main_arg5 (((cfg1.win 3).blk t).view.emb (ix2 p q)) = V c main_arg5 (ix2 p q)
  refine congrArg (V c main_arg5) (funext fun a => Fin.ext ?_)
  match a with
  | ⟨0, _⟩ => show win1_3.index t (0 : Fin 2) * 256 + 1 * p.val = p.val; omega
  | ⟨1, _⟩ => show win1_3.index t (1 : Fin 2) * 128 + 1 * q.val = q.val; omega

theorem blk4_rows (c : Dev nD) (t : Fin cfg1.N) :
    (iblk1 V c 4 t : Arr2 2000 1) = rows 2000 (2000 * t.val) (rows_le t) (V c main_v13) := by
  obtain ⟨-, -, -, -, -, -, -, -, e0, e1, -⟩ := idx_facts t
  funext y
  obtain ⟨p, q, rfl⟩ : ∃ (p : Fin 2000) (q : Fin 1), y = ix2 p q := ⟨y 0, y 1, eq_ix2 y⟩
  show V c main_v13 (((cfg1.win 4).blk t).view.emb (ix2 p q)) = V c main_v13 (ix2 ⟨2000 * t.val + p.val, _⟩ q)
  refine congrArg (V c main_v13) (funext fun a => Fin.ext ?_)
  match a with
  | ⟨0, _⟩ => show win1_4.index t (0 : Fin 2) * 2000 + 1 * p.val = 2000 * t.val + p.val; omega
  | ⟨1, _⟩ => show win1_4.index t (1 : Fin 2) * 1 + 1 * q.val = q.val; omega

/-- Point `t`'s block of the output window, read off any array of the output's shape, is its rows `2000 t …`. -/
theorem blk5_rows (t : Fin cfg1.N) (G : Arr2 50000 128) :
    (((cfg1.win 5).blk t).view.read (Elt Ideal) G : Arr2 2000 128) = rows 2000 (2000 * t.val) (rows_le t) G := by
  obtain ⟨-, -, -, -, -, -, -, -, -, -, e0, e1⟩ := idx_facts t
  funext y
  obtain ⟨p, q, rfl⟩ : ∃ (p : Fin 2000) (q : Fin 128), y = ix2 p q := ⟨y 0, y 1, eq_ix2 y⟩
  show G (((cfg1.win 5).blk t).view.emb (ix2 p q)) = G (ix2 ⟨2000 * t.val + p.val, _⟩ q)
  refine congrArg G (funext fun a => Fin.ext ?_)
  match a with
  | ⟨0, _⟩ => show win1_5.index t (0 : Fin 2) * 2000 + 1 * p.val = 2000 * t.val + p.val; omega
  | ⟨1, _⟩ => show win1_5.index t (1 : Fin 2) * 128 + 1 * q.val = q.val; omega

/-! ## What a point writes back, the cover, the array -/

/-- What point `t` writes back is block `t` of the region's function of the arrays as the region finds them. -/
theorem flushed_eq (c : Dev nD) (t : Fin cfg1.N) :
    (dat1 V c).flushed 5 t
      = ((cfg1.win 5).blk t).view.read (Elt Ideal)
          (linScaleCol (affReluCol (V c main_v30) (V c main_v17) (V c main_v18)) (V c main_arg5) (V c main_v13)) := by
  show (cfg1.win 5).cut (grid1.coords t) ((dat1 V c).after 5 t) = _
  rw [after1_5]
  unfold out1_5
  rw [View.canon_unit_zero hz]
  simp only [View.ld_unit_zero (S := S2000x256) hz, View.ld_unit_zero (S := S2000x1) hz, View.ld_unit_zero (S := S1x256) hz,
    View.ld_unit_zero (S := S256x128) hz]
  rw [pay_eq]
  exact ((congr (congr (congrArg linScaleCol (congr (congr (congrArg affReluCol (blk0_rows V c t)) (blk1_rows V c t))
      (blk2_whole V c t))) (blk3_whole V c t)) (blk4_rows V c t)).trans
    ((congrArg (fun g => linScaleCol g _ _) (affReluCol_rows 2000 (2000 * t.val) (rows_le t) _ _ _).symm).trans
      (linScaleCol_rows 2000 (2000 * t.val) (rows_le t) _ _ _).symm)).trans (blk5_rows t _).symm

/-- An index of the output array is in point `t`'s block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v31).slice (win1_5.rect t)).set ↔ _
  rw [View.set_slice_whole, Rect.mem_set_unit]
  exact Iff.rfl

/-- Row `r` of the output lies in the block of point `r / 2000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : (i 0).val / 2000 < cfg1.N := by rw [show cfg1.N = 25 from N_1]; omega
  obtain ⟨-, -, -, -, -, -, -, -, -, -, e0, e1⟩ := idx_facts ⟨(i 0).val / 2000, hN⟩
  refine ⟨⟨(i 0).val / 2000, hN⟩, flush1_5 _, ?_⟩
  rw [mem_blk]
  intro a
  match a with
  | ⟨0, _⟩ => show win1_5.index ⟨(i 0).val / 2000, hN⟩ (0 : Fin 2) * 2000 ≤ (i 0).val ∧ (i 0).val < win1_5.index ⟨(i 0).val / 2000, hN⟩ (0 : Fin 2) * 2000 + 2000; rw [e0]; show (i 0).val / 2000 * 2000 ≤ (i 0).val ∧ (i 0).val < (i 0).val / 2000 * 2000 + 2000; omega
  | ⟨1, _⟩ => show win1_5.index ⟨(i 0).val / 2000, hN⟩ (1 : Fin 2) * 128 ≤ (i 1).val ∧ (i 1).val < win1_5.index ⟨(i 0).val / 2000, hN⟩ (1 : Fin 2) * 128 + 128; omega

/-- The region's output array after its run, as one function of the arrays as the region finds them. -/
theorem final (c : Dev nD) :
    (dat1 V c).arrAt 5 cfg1.N
      = linScaleCol (affReluCol (V c main_v30) (V c main_v17) (V c main_v18)) (V c main_arg5) (V c main_v13) :=
  (dat1 V c).arrAt_eq_of_cover 5 _ (fun t _ => flushed_eq V c t) cover

end Cert.KernelIdeal.Region1

end
-- ==== Proof.KRegion2.lean ====
/-
  Region 2 of the kernel: a block of 2000 rows of the second aggregate is scaled row by row by the destination-degree
  column, the second bias row is added, and the result is clipped below at zero. The 25 blocks of rows tile the output, so
  the region's output array is that function of the whole arrays.
-/
import proofs.«128159_j52853867544720_1_alg».proof.Proof.Gen.KernelIdeal.Frame
import proofs.«128159_j52853867544720_1_alg».proof.Proof.Spec
import proofs.«128159_j52853867544720_1_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The body's value at an entry -/

/-- The body's stored value: rows scaled by the column, the bias row added, clipped at zero. -/
theorem pay_eq (x0 : Vec Ideal S2000x128 .f32) (x1 : Vec Ideal S2000x1 .f32) (x2 : Vec Ideal S1x128 .f32) :
    k2_pay1 (F := Ideal) x0 x1 x2 = affReluCol x0 x1 x2 := by
  funext j
  obtain ⟨p, a, rfl⟩ : ∃ (p : Fin 2000) (a : Fin 128), j = ix2 p a := ⟨j 0, j 1, eq_ix2 j⟩
  unfold k2_pay1
  rw [shapeCast_self, shapeCast_self, shapeCast_self, maximumf_apply, addf_apply, mulf_apply,
    broadcastTo_apply x1 _ (ix2 p a) (ix2 p 0) (fun d => match d with
      | ⟨0, _⟩ => by show p.val = if (2000 : Nat) = 1 then 0 else p.val; rw [if_neg (by decide)]
      | ⟨1, _⟩ => by show 0 = if (1 : Nat) = 1 then 0 else a.val; rw [if_pos rfl]),
    broadcastTo_apply x2 _ (ix2 p a) (ix2 0 a) (fun d => match d with
      | ⟨0, _⟩ => by show 0 = if (1 : Nat) = 1 then 0 else p.val; rw [if_pos rfl]
      | ⟨1, _⟩ => by show a.val = if (128 : Nat) = 1 then 0 else a.val; rw [if_neg (by decide)])]
  rfl

/-! ## The windows' blocks as blocks of rows -/

/-- Over the grid: point `t`'s block of each row-blocked window starts at row `2000 t`; the bias row's window is the
    whole row at every point. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem rows_le (t : Fin cfg2.N) : 2000 * t.val + 2000 ≤ 50000 := by
  have ht : t.val < 25 := lt_of_lt_of_eq t.isLt N_2
  omega

theorem blk0_rows (c : Dev nD) (t : Fin cfg2.N) :
    (iblk2 V c 0 t : Arr2 2000 128) = rows 2000 (2000 * t.val) (rows_le t) (V c main_v41) := by
  obtain ⟨e0, e1, -⟩ := idx_facts t
  funext y
  obtain ⟨p, q, rfl⟩ : ∃ (p : Fin 2000) (q : Fin 128), y = ix2 p q := ⟨y 0, y 1, eq_ix2 y⟩
  show V c main_v41 (((cfg2.win 0).blk t).view.emb (ix2 p q)) = V c main_v41 (ix2 ⟨2000 * t.val + p.val, _⟩ q)
  refine congrArg (V c main_v41) (funext fun a => Fin.ext ?_)
  match a with
  | ⟨0, _⟩ => show win2_0.index t (0 : Fin 2) * 2000 + 1 * p.val = 2000 * t.val + p.val; omega
  | ⟨1, _⟩ => show win2_0.index t (1 : Fin 2) * 128 + 1 * q.val = q.val; omega

theorem blk1_rows (c : Dev nD) (t : Fin cfg2.N) :
    (iblk2 V c 1 t : Arr2 2000 1) = rows 2000 (2000 * t.val) (rows_le t) (V c main_v17) := by
  obtain ⟨-, -, e0, e1, -⟩ := idx_facts t
  funext y
  obtain ⟨p, q, rfl⟩ : ∃ (p : Fin 2000) (q : Fin 1), y = ix2 p q := ⟨y 0, y 1, eq_ix2 y⟩
  show V c main_v17 (((cfg2.win 1).blk t).view.emb (ix2 p q)) = V c main_v17 (ix2 ⟨2000 * t.val + p.val, _⟩ q)
  refine congrArg (V c main_v17) (funext fun a => Fin.ext ?_)
  match a with
  | ⟨0, _⟩ => show win2_1.index t (0 : Fin 2) * 2000 + 1 * p.val = 2000 * t.val + p.val; omega
  | ⟨1, _⟩ => show win2_1.index t (1 : Fin 2) * 1 + 1 * q.val = q.val; omega

theorem blk2_whole (c : Dev nD) (t : Fin cfg2.N) : (iblk2 V c 2 t : Arr2 1 128) = V c main_v19 := by
  obtain ⟨-, -, -, -, e0, e1, -⟩ := idx_facts t
  funext y
  obtain ⟨p, q, rfl⟩ : ∃ (p : Fin 1) (q : Fin 128), y = ix2 p q := ⟨y 0, y 1, eq_ix2 y⟩
  show V c main_v19 (((cfg2.win 2).blk t).view.emb (ix2 p q)) = V c main_v19 (ix2 p q)
  refine congrArg (V c main_v19) (funext fun a => Fin.ext ?_)
  match a with
  | ⟨0, _⟩ => show win2_2.index t (0 : Fin 2) * 1 + 1 * p.val = p.val; omega
  | ⟨1, _⟩ => show win2_2.index t (1 : Fin 2) * 128 + 1 * q.val = q.val; omega

/-- Point `t`'s block of the output window, read off any array of the output's shape, is its rows `2000 t …`. -/
theorem blk3_rows (t : Fin cfg2.N) (G : Arr2 50000 128) :
    (((cfg2.win 3).blk t).view.read (Elt Ideal) G : Arr2 2000 128) = rows 2000 (2000 * t.val) (rows_le t) G := by
  obtain ⟨-, -, -, -, -, -, e0, e1⟩ := idx_facts t
  funext y
  obtain ⟨p, q, rfl⟩ : ∃ (p : Fin 2000) (q : Fin 128), y = ix2 p q := ⟨y 0, y 1, eq_ix2 y⟩
  show G (((cfg2.win 3).blk t).view.emb (ix2 p q)) = G (ix2 ⟨2000 * t.val + p.val, _⟩ q)
  refine congrArg G (funext fun a => Fin.ext ?_)
  match a with
  | ⟨0, _⟩ => show win2_3.index t (0 : Fin 2) * 2000 + 1 * p.val = 2000 * t.val + p.val; omega
  | ⟨1, _⟩ => show win2_3.index t (1 : Fin 2) * 128 + 1 * q.val = q.val; omega

/-! ## What a point writes back, the cover, the array -/

/-- What point `t` writes back is block `t` of the region's function of the arrays as the region finds them. -/
theorem flushed_eq (c : Dev nD) (t : Fin cfg2.N) :
    (dat2 V c).flushed 3 t
      = ((cfg2.win 3).blk t).view.read (Elt Ideal) (affReluCol (V c main_v41) (V c main_v17) (V c main_v19)) := by
  show (cfg2.win 3).cut (grid2.coords t) ((dat2 V c).after 3 t) = _
  rw [after2_3]
  unfold out2_3
  rw [View.canon_unit_zero hz]
  simp only [View.ld_unit_zero (S := S2000x128) hz, View.ld_unit_zero (S := S2000x1) hz, View.ld_unit_zero (S := S1x128) hz]
  rw [pay_eq]
  exact ((congr (congr (congrArg affReluCol (blk0_rows V c t)) (blk1_rows V c t)) (blk2_whole V c t)).trans
    (affReluCol_rows 2000 (2000 * t.val) (rows_le t) _ _ _).symm).trans (blk3_rows t _).symm

/-- An index of the output array is in point `t`'s block iff each coordinate is in the block's range on its axis. -/
theorem mem_blk (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v42).slice (win2_3.rect t)).set ↔ _
  rw [View.set_slice_whole, Rect.mem_set_unit]
  exact Iff.rfl

/-- Row `r` of the output lies in the block of point `r / 2000`. -/
theorem cover (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hN : (i 0).val / 2000 < cfg2.N := by rw [show cfg2.N = 25 from N_2]; omega
  obtain ⟨-, -, -, -, -, -, e0, e1⟩ := idx_facts ⟨(i 0).val / 2000, hN⟩
  refine ⟨⟨(i 0).val / 2000, hN⟩, flush2_3 _, ?_⟩
  rw [mem_blk]
  intro a
  match a with
  | ⟨0, _⟩ => show win2_3.index ⟨(i 0).val / 2000, hN⟩ (0 : Fin 2) * 2000 ≤ (i 0).val ∧ (i 0).val < win2_3.index ⟨(i 0).val / 2000, hN⟩ (0 : Fin 2) * 2000 + 2000; rw [e0]; show (i 0).val / 2000 * 2000 ≤ (i 0).val ∧ (i 0).val < (i 0).val / 2000 * 2000 + 2000; omega
  | ⟨1, _⟩ => show win2_3.index ⟨(i 0).val / 2000, hN⟩ (1 : Fin 2) * 128 ≤ (i 1).val ∧ (i 1).val < win2_3.index ⟨(i 0).val / 2000, hN⟩ (1 : Fin 2) * 128 + 128; omega

/-- The region's output array after its run, as one function of the arrays as the region finds them. -/
theorem final (c : Dev nD) :
    (dat2 V c).arrAt 3 cfg2.N = affReluCol (V c main_v41) (V c main_v17) (V c main_v19) :=
  (dat2 V c).arrAt_eq_of_cover 3 _ (fun t _ => flushed_eq V c t) cover

end Cert.KernelIdeal.Region2

end
-- ==== Proof.RefSide.lean ====
/-
  The reference's dense stages as the two whole-array functions of the specification.

  Between its gathers and scatter-adds the reference computes, on whole arrays: the product of the features with the first
  weight matrix, each row scaled by the inverse square root of its (clamped) source degree; then, of the first aggregate,
  rows scaled by the destination factor, plus the bias, clipped at zero, times the second weight matrix, rows scaled by the
  source factor; and last the second aggregate's rows scaled by the destination factor, plus the second bias, clipped at
  zero. Read at an index, each is the specification's `linScaleCol` / `affReluCol` of the same operands, with the
  per-row factors laid out as a column and the bias as a row.
-/
import proofs.«128159_j52853867544720_1_alg».proof.Proof.Gen.ReferenceIdeal.Run
import proofs.«128159_j52853867544720_1_alg».proof.Proof.Gen.ReferenceIdeal.Read
import proofs.«128159_j52853867544720_1_alg».proof.Proof.Spec
import Idealize.ShloMosaic.Lib.Pipeline.Value
import Idealize.ShloMosaic.Lib.ValueIdx
import Idealize.ShloMosaic.Lib.ValueLayout

noncomputable section

namespace Cert.ReferenceIdeal.Stages

open Cert.ReferenceIdeal Cert.ReferenceIdeal.Read Cert.Spec
open Idealize.ShloMosaic Idealize.ShloMosaic.ValueIdx

/-- A vector of length `a` laid out as a column `[a, 1]` reads, at `(i, u)`, the vector at `i`. -/
theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The first dense stage: features times weights, rows scaled by the source factor. -/
theorem stage0 (h1 : S50000.ShapeCasts S50000x1)
    (x0 : (⟨S50000x256, .f32⟩ : BufTy).Contents (Elt Ideal)) (x1 : (⟨S800000, .i32⟩ : BufTy).Contents (Elt Ideal))
    (x3 : (⟨S256x256, .f32⟩ : BufTy).Contents (Elt Ideal)) :
    val_main_v19 (F := Ideal) x0 x1 x3 = linScaleCol x0 x3 (shapeCast S50000x1 (val_main_v12 (F := Ideal) x1) h1) := by
  funext i
  obtain ⟨p, q, rfl⟩ : ∃ (p : Fin 50000) (q : Fin 256), i = ix2 p q := ⟨i 0, i 1, eq_ix2 i⟩
  rw [val_main_v19_apply, val_main_v16_apply, val_main_v18_apply, val_main_v17_apply]
  have hl : ∀ k : Fin 256, lidx_main_v16 (ix2 p q) k = ix2 p k := fun k => funext fun a => Fin.ext (by
    match a with | ⟨0, _⟩ => rfl | ⟨1, _⟩ => rfl)
  have hr : ∀ k : Fin 256, ridx_main_v16 (ix2 p q) k = ix2 k q := fun k => funext fun a => Fin.ext (by
    match a with | ⟨0, _⟩ => rfl | ⟨1, _⟩ => rfl)
  have hc : idx_main_v17 (idx_main_v18 (ix2 p q)) = ix1 p := funext fun a => Fin.ext (by
    match a with | ⟨0, _⟩ => rfl)
  simp only [hl, hr, hc]
  refine Eq.trans ?_ (congrArg (fun z => (∑ a : Fin 256, x0 (ix2 p a) * x3 (ix2 a q)) * z)
    (shapeCast_col_apply (val_main_v12 (F := Ideal) x1) h1 p 0).symm)
  rfl

/-- The activation between the two layers: the first aggregate's rows scaled by the destination factor, plus the first
    bias, clipped at zero. -/
theorem act1 (h1 : S50000.ShapeCasts S50000x1) (h2 : S256.ShapeCasts S1x256)
    (x0 : (⟨S50000x256, .f32⟩ : BufTy).Contents (Elt Ideal)) (x1 x2 : (⟨S800000, .i32⟩ : BufTy).Contents (Elt Ideal))
    (x3 : (⟨S256x256, .f32⟩ : BufTy).Contents (Elt Ideal)) (x4 : (⟨S256, .f32⟩ : BufTy).Contents (Elt Ideal)) :
    val_main_v36 (F := Ideal) x0 x1 x2 x3 x4
      = affReluCol (val_main_v29 (F := Ideal) x0 x1 x2 x3) (shapeCast S50000x1 (val_main_v15 (F := Ideal) x2) h1)
          (shapeCast S1x256 x4 h2) := by
  funext i
  obtain ⟨p, a, rfl⟩ : ∃ (p : Fin 50000) (a : Fin 256), i = ix2 p a := ⟨i 0, i 1, eq_ix2 i⟩
  rw [val_main_v36_apply, val_main_v35_apply, val_main_v32_apply, val_main_v31_apply, val_main_v30_apply,
    val_main_v34_apply, val_main_v33_apply, val_main_call0_v0_apply, val_main_call0_cst_apply]
  have hc : idx_main_v30 (idx_main_v31 (ix2 p a)) = ix1 p := funext fun d => Fin.ext (by
    match d with | ⟨0, _⟩ => rfl)
  have hb : idx_main_v33 (idx_main_v34 (ix2 p a)) = ix1 a := funext fun d => Fin.ext (by
    match d with | ⟨0, _⟩ => rfl)
  simp only [hc, hb]
  unfold affReluCol
  rw [shapeCast_col_apply, shapeCast_a_1a_apply]
  rfl

/-- The second dense stage: the activation times the second weights, rows scaled by the source factor. -/
theorem stage1 (h1 : S50000.ShapeCasts S50000x1) (h2 : S256.ShapeCasts S1x256)
    (x0 : (⟨S50000x256, .f32⟩ : BufTy).Contents (Elt Ideal)) (x1 x2 : (⟨S800000, .i32⟩ : BufTy).Contents (Elt Ideal))
    (x3 : (⟨S256x256, .f32⟩ : BufTy).Contents (Elt Ideal)) (x4 : (⟨S256, .f32⟩ : BufTy).Contents (Elt Ideal))
    (x5 : (⟨S256x128, .f32⟩ : BufTy).Contents (Elt Ideal)) :
    val_main_v40 (F := Ideal) x0 x1 x2 x3 x4 x5
      = linScaleCol (affReluCol (val_main_v29 (F := Ideal) x0 x1 x2 x3) (shapeCast S50000x1 (val_main_v15 (F := Ideal) x2) h1)
          (shapeCast S1x256 x4 h2)) x5 (shapeCast S50000x1 (val_main_v12 (F := Ideal) x1) h1) := by
  funext i
  obtain ⟨p, q, rfl⟩ : ∃ (p : Fin 50000) (q : Fin 128), i = ix2 p q := ⟨i 0, i 1, eq_ix2 i⟩
  rw [val_main_v40_apply, val_main_v37_apply, val_main_v39_apply, val_main_v38_apply, act1 h1 h2]
  have hl : ∀ k : Fin 256, lidx_main_v37 (ix2 p q) k = ix2 p k := fun k => funext fun a => Fin.ext (by
    match a with | ⟨0, _⟩ => rfl | ⟨1, _⟩ => rfl)
  have hr : ∀ k : Fin 256, ridx_main_v37 (ix2 p q) k = ix2 k q := fun k => funext fun a => Fin.ext (by
    match a with | ⟨0, _⟩ => rfl | ⟨1, _⟩ => rfl)
  have hc : idx_main_v38 (idx_main_v39 (ix2 p q)) = ix1 p := funext fun a => Fin.ext (by
    match a with | ⟨0, _⟩ => rfl)
  simp only [hl, hr, hc]
  refine Eq.trans ?_ (congrArg (fun z => (∑ a : Fin 256, affReluCol (val_main_v29 (F := Ideal) x0 x1 x2 x3)
      (shapeCast S50000x1 (val_main_v15 (F := Ideal) x2) h1) (shapeCast S1x256 x4 h2) (ix2 p a) * x5 (ix2 a q)) * z)
    (shapeCast_col_apply (val_main_v12 (F := Ideal) x1) h1 p 0).symm)
  rfl

/-- The last stage: the second aggregate's rows scaled by the destination factor, plus the second bias, clipped at zero. -/
theorem stage2 (h1 : S50000.ShapeCasts S50000x1) (h3 : S128.ShapeCasts S1x128)
    (x0 : (⟨S50000x256, .f32⟩ : BufTy).Contents (Elt Ideal)) (x1 x2 : (⟨S800000, .i32⟩ : BufTy).Contents (Elt Ideal))
    (x3 : (⟨S256x256, .f32⟩ : BufTy).Contents (Elt Ideal)) (x4 : (⟨S256, .f32⟩ : BufTy).Contents (Elt Ideal))
    (x5 : (⟨S256x128, .f32⟩ : BufTy).Contents (Elt Ideal)) (x6 : (⟨S128, .f32⟩ : BufTy).Contents (Elt Ideal)) :
    val_main_v57 (F := Ideal) x0 x1 x2 x3 x4 x5 x6
      = affReluCol (val_main_v50 (F := Ideal) x0 x1 x2 x3 x4 x5) (shapeCast S50000x1 (val_main_v15 (F := Ideal) x2) h1)
          (shapeCast S1x128 x6 h3) := by
  funext i
  obtain ⟨p, a, rfl⟩ : ∃ (p : Fin 50000) (a : Fin 128), i = ix2 p a := ⟨i 0, i 1, eq_ix2 i⟩
  rw [val_main_v57_apply, val_main_v56_apply, val_main_v53_apply, val_main_v52_apply, val_main_v51_apply,
    val_main_v55_apply, val_main_v54_apply, val_main_call1_v0_apply, val_main_call1_cst_apply]
  have hc : idx_main_v51 (idx_main_v52 (ix2 p a)) = ix1 p := funext fun d => Fin.ext (by
    match d with | ⟨0, _⟩ => rfl)
  have hb : idx_main_v54 (idx_main_v55 (ix2 p a)) = ix1 a := funext fun d => Fin.ext (by
    match d with | ⟨0, _⟩ => rfl)
  simp only [hc, hb]
  unfold affReluCol
  rw [shapeCast_col_apply, shapeCast_a_1a_apply]
  rfl

end Cert.ReferenceIdeal.Stages

end
-- ==== Proof.KValue.lean ====
/-
  The idealized kernel's result array as the reference's last stage.

  The buffer contents at each boundary of @main are a fold: a stretch of host operations applies its operations to the
  contents before it, a region leaves its output array at what its grid points wrote back and every other buffer as it
  was. Followed from the launch memory: the first stretch computes the self-looped index vectors, the two degree factors
  (as columns) and the two bias rows exactly as the reference does; region 0 leaves the reference's scaled product; the
  second stretch gathers and scatter-adds it as the reference does; region 1 leaves the reference's second scaled product;
  the third stretch aggregates again; region 2 leaves the reference's result. The gathers and scatter-adds are never opened:
  both programs apply the same operations to equal operands.
-/
import proofs.«128159_j52853867544720_1_alg».proof.Proof.Gen.KernelIdeal.Frame
import proofs.«128159_j52853867544720_1_alg».proof.Proof.KRegion0
import proofs.«128159_j52853867544720_1_alg».proof.Proof.KRegion1
import proofs.«128159_j52853867544720_1_alg».proof.Proof.KRegion2
import proofs.«128159_j52853867544720_1_alg».proof.Proof.RefSide
import Idealize.ShloMosaic.Lib.StableHlo.Run

set_option maxRecDepth 16384

noncomputable section

namespace Cert.KernelIdeal.Whole

open Cert.KernelIdeal Cert.KernelIdeal.Gen Cert.Spec Cert.ReferenceIdeal.Read
open Idealize.ShloMosaic Idealize.ShloMosaic.TcCoe Idealize.ShloMosaic.StableHlo Idealize.SL.Sem

variable (m : (ℓ : Loc nD τ sig) → Buf (Elt Ideal) ℓ) (ρ : Dev nD → PrngReg)

/-! ## The arguments as launched, and what the first stretch makes of them -/

abbrev arg0 (c : Dev nD) : (⟨S50000x256, .f32⟩ : BufTy).Contents (Elt Ideal) := m ((c : Thread nD τ).loc main_arg0)
abbrev arg1 (c : Dev nD) : (⟨S800000, .i32⟩ : BufTy).Contents (Elt Ideal) := m ((c : Thread nD τ).loc main_arg1)
abbrev arg2 (c : Dev nD) : (⟨S800000, .i32⟩ : BufTy).Contents (Elt Ideal) := m ((c : Thread nD τ).loc main_arg2)
abbrev arg3 (c : Dev nD) : (⟨S256x256, .f32⟩ : BufTy).Contents (Elt Ideal) := m ((c : Thread nD τ).loc main_arg3)
abbrev arg4 (c : Dev nD) : (⟨S256, .f32⟩ : BufTy).Contents (Elt Ideal) := m ((c : Thread nD τ).loc main_arg4)
abbrev arg5 (c : Dev nD) : (⟨S256x128, .f32⟩ : BufTy).Contents (Elt Ideal) := m ((c : Thread nD τ).loc main_arg5)
abbrev arg6 (c : Dev nD) : (⟨S128, .f32⟩ : BufTy).Contents (Elt Ideal) := m ((c : Thread nD τ).loc main_arg6)

/-- The source indices with the self loops appended. -/
abbrev srcIdx (c : Dev nD) := val_main_v1 (F := Ideal) (arg1 m c)
/-- The destination indices with the self loops appended. -/
abbrev dstIdx (c : Dev nD) := val_main_v2 (F := Ideal) (arg2 m c)
/-- The source-degree factors as a column. -/
abbrev srcCol (c : Dev nD) := shapeCast S50000x1 (val_main_v12 (F := Ideal) (arg1 m c)) shapeCasts_S50000_S50000x1
/-- The destination-degree factors as a column. -/
abbrev dstCol (c : Dev nD) := shapeCast S50000x1 (val_main_v15 (F := Ideal) (arg2 m c)) shapeCasts_S50000_S50000x1
/-- The two biases as rows. -/
abbrev biasRow0 (c : Dev nD) := shapeCast S1x256 (arg4 m c) shapeCasts_S256_S1x256
abbrev biasRow1 (c : Dev nD) := shapeCast S1x128 (arg6 m c) shapeCasts_S128_S1x128

theorem at1_v1 (c : Dev nD) : W1 m ρ c (Proc.devRef .tc main_v1) = srcIdx m c := by
  show StableHlo.after hostOps0 (W0 m ρ c) (Proc.devRef .tc main_v1) = _
  after_results
  rfl
theorem at1_v2 (c : Dev nD) : W1 m ρ c (Proc.devRef .tc main_v2) = dstIdx m c := by
  show StableHlo.after hostOps0 (W0 m ρ c) (Proc.devRef .tc main_v2) = _
  after_results
  rfl
theorem at1_v13 (c : Dev nD) : W1 m ρ c (Proc.devRef .tc main_v13) = srcCol m c := by
  show StableHlo.after hostOps0 (W0 m ρ c) (Proc.devRef .tc main_v13) = _
  after_results
  rfl
theorem at1_v17 (c : Dev nD) : W1 m ρ c (Proc.devRef .tc main_v17) = dstCol m c := by
  show StableHlo.after hostOps0 (W0 m ρ c) (Proc.devRef .tc main_v17) = _
  after_results
  rfl
theorem at1_v18 (c : Dev nD) : W1 m ρ c (Proc.devRef .tc main_v18) = biasRow0 m c := by
  show StableHlo.after hostOps0 (W0 m ρ c) (Proc.devRef .tc main_v18) = _
  after_results
  rfl
theorem at1_v19 (c : Dev nD) : W1 m ρ c (Proc.devRef .tc main_v19) = biasRow1 m c := by
  show StableHlo.after hostOps0 (W0 m ρ c) (Proc.devRef .tc main_v19) = _
  after_results
  rfl
theorem at1_arg0 (c : Dev nD) : W1 m ρ c (Proc.devRef .tc main_arg0) = arg0 m c := by
  show StableHlo.after hostOps0 (W0 m ρ c) (Proc.devRef .tc main_arg0) = _
  after_results
theorem at1_arg3 (c : Dev nD) : W1 m ρ c (Proc.devRef .tc main_arg3) = arg3 m c := by
  show StableHlo.after hostOps0 (W0 m ρ c) (Proc.devRef .tc main_arg3) = _
  after_results
theorem at1_arg5 (c : Dev nD) : W1 m ρ c (Proc.devRef .tc main_arg5) = arg5 m c := by
  show StableHlo.after hostOps0 (W0 m ρ c) (Proc.devRef .tc main_arg5) = _
  after_results

/-! ## Region 0's exit -/

/-- A buffer no window of region 0 stages is across the region as before it. -/
theorem at2_v1 (c : Dev nD) : W2 m ρ c (Proc.devRef .tc main_v1) = srcIdx m c :=
  (W2_of_ne m ρ c main_v1 (by decide)).trans (at1_v1 m ρ c)
theorem at2_v2 (c : Dev nD) : W2 m ρ c (Proc.devRef .tc main_v2) = dstIdx m c :=
  (W2_of_ne m ρ c main_v2 (by decide)).trans (at1_v2 m ρ c)
theorem at2_v17 (c : Dev nD) : W2 m ρ c (Proc.devRef .tc main_v17) = dstCol m c :=
  (W2_of_ne m ρ c main_v17 (by decide)).trans (at1_v17 m ρ c)
theorem at2_v18 (c : Dev nD) : W2 m ρ c (Proc.devRef .tc main_v18) = biasRow0 m c :=
  (W2_of_ne m ρ c main_v18 (by decide)).trans (at1_v18 m ρ c)
theorem at2_v19 (c : Dev nD) : W2 m ρ c (Proc.devRef .tc main_v19) = biasRow1 m c :=
  (W2_of_ne m ρ c main_v19 (by decide)).trans (at1_v19 m ρ c)
theorem at2_arg5 (c : Dev nD) : W2 m ρ c (Proc.devRef .tc main_arg5) = arg5 m c :=
  (W2_of_ne m ρ c main_arg5 (by decide)).trans (at1_arg5 m ρ c)
/-- An input window's array is across its region as before it. -/
theorem at2_v13 (c : Dev nD) : W2 m ρ c (Proc.devRef .tc main_v13) = srcCol m c :=
  ((W2_arr m ρ c 2).trans (((dat0 (V1 m ρ) c).arrAt_in 2 rfl _).trans (A_eq0 (V1 m ρ) c 2))).trans (at1_v13 m ρ c)

/-- Region 0 leaves the reference's first dense stage in its output array. -/
theorem at2_v20 (c : Dev nD) :
    W2 m ρ c (Proc.devRef .tc main_v20) = val_main_v19 (F := Ideal) (arg0 m c) (arg1 m c) (arg3 m c) := by
  refine (W2_arr m ρ c 3).trans ((Region0.final (V1 m ρ) c).trans ?_)
  show linScaleCol (W1 m ρ c (Proc.devRef .tc main_arg0)) (W1 m ρ c (Proc.devRef .tc main_arg3))
    (W1 m ρ c (Proc.devRef .tc main_v13)) = _
  rw [at1_arg0, at1_arg3, at1_v13]
  exact (Cert.ReferenceIdeal.Stages.stage0 _ _ _ _).symm

/-! ## The second stretch: the first aggregation -/

theorem at3_v30 (c : Dev nD) :
    W3 m ρ c (Proc.devRef .tc main_v30) = val_main_v29 (F := Ideal) (arg0 m c) (arg1 m c) (arg2 m c) (arg3 m c) := by
  show StableHlo.after hostOps1 (W2 m ρ c) (Proc.devRef .tc main_v30) = _
  after_results
  rw [at2_v1, at2_v2, at2_v20]
  rfl
theorem at3_v17 (c : Dev nD) : W3 m ρ c (Proc.devRef .tc main_v17) = dstCol m c := by
  show StableHlo.after hostOps1 (W2 m ρ c) (Proc.devRef .tc main_v17) = _
  after_results
  exact at2_v17 m ρ c
theorem at3_v18 (c : Dev nD) : W3 m ρ c (Proc.devRef .tc main_v18) = biasRow0 m c := by
  show StableHlo.after hostOps1 (W2 m ρ c) (Proc.devRef .tc main_v18) = _
  after_results
  exact at2_v18 m ρ c
theorem at3_v19 (c : Dev nD) : W3 m ρ c (Proc.devRef .tc main_v19) = biasRow1 m c := by
  show StableHlo.after hostOps1 (W2 m ρ c) (Proc.devRef .tc main_v19) = _
  after_results
  exact at2_v19 m ρ c
theorem at3_v13 (c : Dev nD) : W3 m ρ c (Proc.devRef .tc main_v13) = srcCol m c := by
  show StableHlo.after hostOps1 (W2 m ρ c) (Proc.devRef .tc main_v13) = _
  after_results
  exact at2_v13 m ρ c
theorem at3_arg5 (c : Dev nD) : W3 m ρ c (Proc.devRef .tc main_arg5) = arg5 m c := by
  show StableHlo.after hostOps1 (W2 m ρ c) (Proc.devRef .tc main_arg5) = _
  after_results
  exact at2_arg5 m ρ c
theorem at3_v1 (c : Dev nD) : W3 m ρ c (Proc.devRef .tc main_v1) = srcIdx m c := by
  show StableHlo.after hostOps1 (W2 m ρ c) (Proc.devRef .tc main_v1) = _
  after_results
  exact at2_v1 m ρ c
theorem at3_v2 (c : Dev nD) : W3 m ρ c (Proc.devRef .tc main_v2) = dstIdx m c := by
  show StableHlo.after hostOps1 (W2 m ρ c) (Proc.devRef .tc main_v2) = _
  after_results
  exact at2_v2 m ρ c

/-! ## Region 1's exit -/

theorem at4_v1 (c : Dev nD) : W4 m ρ c (Proc.devRef .tc main_v1) = srcIdx m c :=
  (W4_of_ne m ρ c main_v1 (by decide)).trans (at3_v1 m ρ c)
theorem at4_v2 (c : Dev nD) : W4 m ρ c (Proc.devRef .tc main_v2) = dstIdx m c :=
  (W4_of_ne m ρ c main_v2 (by decide)).trans (at3_v2 m ρ c)
theorem at4_v19 (c : Dev nD) : W4 m ρ c (Proc.devRef .tc main_v19) = biasRow1 m c :=
  (W4_of_ne m ρ c main_v19 (by decide)).trans (at3_v19 m ρ c)
theorem at4_v17 (c : Dev nD) : W4 m ρ c (Proc.devRef .tc main_v17) = dstCol m c :=
  ((W4_arr m ρ c 1).trans (((dat1 (V3 m ρ) c).arrAt_in 1 rfl _).trans (A_eq1 (V3 m ρ) c 1))).trans (at3_v17 m ρ c)

/-- Region 1 leaves the reference's second dense stage in its output array. -/
theorem at4_v31 (c : Dev nD) :
    W4 m ρ c (Proc.devRef .tc main_v31)
      = val_main_v40 (F := Ideal) (arg0 m c) (arg1 m c) (arg2 m c) (arg3 m c) (arg4 m c) (arg5 m c) := by
  refine (W4_arr m ρ c 5).trans ((Region1.final (V3 m ρ) c).trans ?_)
  show linScaleCol (affReluCol (W3 m ρ c (Proc.devRef .tc main_v30)) (W3 m ρ c (Proc.devRef .tc main_v17))
      (W3 m ρ c (Proc.devRef .tc main_v18))) (W3 m ρ c (Proc.devRef .tc main_arg5)) (W3 m ρ c (Proc.devRef .tc main_v13)) = _
  rw [at3_v30, at3_v17, at3_v18, at3_arg5, at3_v13]
  exact (Cert.ReferenceIdeal.Stages.stage1 _ _ _ _ _ _ _ _).symm

/-! ## The third stretch: the second aggregation -/

theorem at5_v41 (c : Dev nD) :
    W5 m ρ c (Proc.devRef .tc main_v41)
      = val_main_v50 (F := Ideal) (arg0 m c) (arg1 m c) (arg2 m c) (arg3 m c) (arg4 m c) (arg5 m c) := by
  show StableHlo.after hostOps2 (W4 m ρ c) (Proc.devRef .tc main_v41) = _
  after_results
  rw [at4_v1, at4_v2, at4_v31]
  rfl
theorem at5_v17 (c : Dev nD) : W5 m ρ c (Proc.devRef .tc main_v17) = dstCol m c := by
  show StableHlo.after hostOps2 (W4 m ρ c) (Proc.devRef .tc main_v17) = _
  after_results
  exact at4_v17 m ρ c
theorem at5_v19 (c : Dev nD) : W5 m ρ c (Proc.devRef .tc main_v19) = biasRow1 m c := by
  show StableHlo.after hostOps2 (W4 m ρ c) (Proc.devRef .tc main_v19) = _
  after_results
  exact at4_v19 m ρ c

/-! ## Region 2's exit: the result -/

/-- The result array after the run is the reference's last stage of the arguments as launched. -/
theorem result_eq (c : Dev nD) :
    V6 m ρ c main_v42
      = val_main_v57 (F := Ideal) (arg0 m c) (arg1 m c) (arg2 m c) (arg3 m c) (arg4 m c) (arg5 m c) (arg6 m c) := by
  refine (W6_arr m ρ c 3).trans ((Region2.final (V5 m ρ) c).trans ?_)
  show affReluCol (W5 m ρ c (Proc.devRef .tc main_v41)) (W5 m ρ c (Proc.devRef .tc main_v17))
    (W5 m ρ c (Proc.devRef .tc main_v19)) = _
  rw [at5_v41, at5_v17, at5_v19]
  exact (Cert.ReferenceIdeal.Stages.stage2 _ _ _ _ _ _ _ _ _).symm

end Cert.KernelIdeal.Whole

end
-- ==== Proof.lean ====
/-
  A two-layer graph convolution with symmetric degree normalization and self loops, tiled over blocks of 2000 nodes,
  against its plain array-level statement.

  Both programs append the self loops to the edge lists, count source and destination degrees by scatter-adding ones, and
  take the inverse square root of each degree clamped below at one. Layer by layer, both then multiply the node features
  with the weights, scale row `p` by the source factor of node `p`, gather rows at the source indices, scatter-add them at
  the destination indices, scale row `p` by the destination factor, add the bias and clip at zero. The kernel does the
  dense parts in three pipelined regions over 25 blocks of rows (the first product; the first epilogue fused with the second
  product; the last epilogue) and leaves gather and scatter-add to the host, where the reference has them too.

  On the extended reals a change of float format is the identity and a block product into a zero accumulator is the plain
  sum over the contracted axis, so each region's output array, its 25 row blocks tiling all 50000 rows, is exactly the
  reference's whole-array stage of the same operands (Proof/KRegion0–2 for the kernel's side, Proof/RefSide for the
  reference's); the host operations between the regions are the same operations on equal operands (Proof/KValue). No
  algebraic law is needed beyond that, and none that wants finite operands: the precondition is never opened.
-/
import proofs.«128159_j52853867544720_1_alg».proof.Defs
import proofs.«128159_j52853867544720_1_alg».proof.Proof.Gen.Kernel
import proofs.«128159_j52853867544720_1_alg».proof.Proof.Gen.Kernel.Skeleton
import proofs.«128159_j52853867544720_1_alg».proof.Proof.Gen.Kernel.Launch
import proofs.«128159_j52853867544720_1_alg».proof.Proof.Gen.Kernel.Points
import proofs.«128159_j52853867544720_1_alg».proof.Proof.Gen.Kernel.Frame
import proofs.«128159_j52853867544720_1_alg».proof.Proof.Gen.KernelIdeal
import proofs.«128159_j52853867544720_1_alg».proof.Proof.Gen.KernelIdeal.Skeleton
import proofs.«128159_j52853867544720_1_alg».proof.Proof.Gen.KernelIdeal.Launch
import proofs.«128159_j52853867544720_1_alg».proof.Proof.Gen.KernelIdeal.Points
import proofs.«128159_j52853867544720_1_alg».proof.Proof.Gen.KernelIdeal.Frame
import proofs.«128159_j52853867544720_1_alg».proof.Proof.Gen.ReferenceIdeal
import proofs.«128159_j52853867544720_1_alg».proof.Proof.Gen.ReferenceIdeal.Run
import proofs.«128159_j52853867544720_1_alg».proof.Proof.Gen.ReferenceIdeal.Read
import proofs.«128159_j52853867544720_1_alg».proof.Proof.Gen.Pre_finite_inputs
import proofs.«128159_j52853867544720_1_alg».proof.Proof.KRun
import proofs.«128159_j52853867544720_1_alg».proof.Proof.KValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the same result array: the kernel's is the last
    region's output, which is the reference's last stage of the kernel's arguments; the reference's is that stage of its
    own, equal arguments. -/
theorem algebraic : Cert.algebraic_KernelIdeal_ReferenceIdeal := by
  intro m ρ m' ρ' _ hagree
  refine ⟨fun c => Cert.KernelIdeal.Gen.V6 m ρ c Cert.KernelIdeal.main_v42, Cert.KernelIdeal.Run.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, (hagree c).1, (hagree c).2.1, (hagree c).2.2.1, (hagree c).2.2.2.1,
    (hagree c).2.2.2.2.1, (hagree c).2.2.2.2.2.1, (hagree c).2.2.2.2.2.2]
  exact (Cert.KernelIdeal.Whole.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
